-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1x4096x64 : Shape := ⟨3, ![1, 4096, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1x4096x64 : S_.BroadcastsInDim S1x4096x64 (![] : Fin 0 → Fin S1x4096x64.rank)
  reducesTo_S1x4096x64_S_d0_1_2 : S1x4096x64.ReducesTo [0, 1, 2] S_

variable [Facts]

def fn {F : FTy → Type} [FloatOps F] (main_arg0 : FVec F S16384x64 .f32) (main_arg1 : FVec F S1x4096x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1x4096x64 .f32 := Host.absf main_arg1
  let main_cst_0 : FVec F S_ .f32 := constant S_ .f32 0x7F800000#32
  let main_v5 : FVec F S1x4096x64 .f32 := broadcastInDim S1x4096x64 ![] bcast_S_S1x4096x64 main_cst_0
  let main_v6 : IVec S1x4096x64 1 := cmpf .olt main_v4 main_v5
  let main_c_1 : IVec S_ 1 := constantI S_ 1 1#1
  let main_v7 : IVec S_ 1 := (fun x v => Host.reduce IntOp.andi x v reducesTo_S1x4096x64_S_d0_1_2 h_S_) main_v6 main_c_1
  let main_v8 : IVec S_ 1 := andi main_v3 main_v7
  main_v8
-- ==== Kernel.lean ====
abbrev S16384x64 : Shape := ⟨2, ![16384, 64]⟩
abbrev S1x4096x64 : Shape := ⟨3, ![1, 4096, 64]⟩
abbrev S4096x64 : Shape := ⟨2, ![4096, 64]⟩
abbrev S16384x4096 : Shape := ⟨2, ![16384, 4096]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S64x1024 : Shape := ⟨2, ![64, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S1x4096x64, .f32⟩
  | .hbm, ⟨2, _⟩ => ⟨S4096x64, .f32⟩
  | .hbm, ⟨3, _⟩ => ⟨S16384x4096, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S2048x1024, .f32⟩
  | .local _ .vmem, ⟨5, _⟩ => ⟨S2048x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x4096x64_S4096x64 : S1x4096x64.ShapeCasts S4096x64
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S2048x64_S2048 : S2048x64.Reduces [1] S2048
  shapeCasts_S2048_S2048x1 : S2048.ShapeCasts S2048x1
  reduces_S1024x64_S1024 : S1024x64.Reduces [1] S1024
  shapeCasts_S1024_S1x1024 : S1024.ShapeCasts S1x1024
  transposes_S1024x64_p1_0_S64x1024 : S1024x64.Transposes [1, 0] S64x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .f32 = 32 ∨ (Rect.block (s := S16384x4096) S2048x1024.size (cc0_transform_2 i) (hinb0_2 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S1x4096x64 : Shape := ⟨3, ![1, 4096, 64]⟩
abbrev S4096x64 : Shape := ⟨2, ![4096, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1x4096x64, .f32⟩
  | .hbm, ⟨2, _⟩ => ⟨S4096x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x4096x64_S4096x64 : S1x4096x64.ShapeCasts S4096x64
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  dot_S16384x64_S4096x64_S16384x4096_1_1_0_0_n_n_wf : DotDims.WF S16384x64 S4096x64 S16384x4096 [1] [1] [0] [0] [] []

variable [Facts₀]

def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.LibColumnForms.lean ====
/-
  Row totals kept as a column, read at an entry.

  A vector of `a` row totals laid out as a column `[a, 1]` has, at `(i, u)`, the total of row `i`; that column
  repeated over `b` columns has, at `(p, c)`, the total of row `p`; and the total of row `r` of an `[a, b]` matrix
  over the extended reals is the sum of the row's `b` entries. Stated at any extents, with indices written by their
  coordinates.
-/
import Idealize.ShloMosaic.Lib.ValueIdx
import Idealize.ShloMosaic.Lib.Pipeline.Value
import Idealize.ShloMosaic.PureOps.Ideal.Laws

noncomputable section

namespace Cert.ColumnForms

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` matrix of extended reals, read at row `r`: the sum of that row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d
  apply Fin.ext
  match d with
  | ⟨0, _⟩ => rfl
  | ⟨1, _⟩ => rfl

end Cert.ColumnForms

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibSqDist.lean ====
/-
  The squared Euclidean distance between row `b` of a matrix `x : [B, D]` and row `p` of a matrix `w : [P, D]`, in
  its expanded form over the extended reals:

      ‖x_b‖² − 2·⟨x_b, w_p⟩ + ‖w_p‖²,   each of the three a sum over the `D` columns,

  with the factor 2 the f32 word `0x40000000` read as an extended real, grouped `(‖x_b‖² − 2·⟨x_b, w_p⟩) + ‖w_p‖²`.
  The value depends on `x` only through row `b` and on `w` only through row `p` (`sqDist_congr`): a block of the
  table of all distances is the table of distances between the two blocks of rows.
-/
import Idealize.ShloMosaic.Lib.ValueIdx
import Idealize.ShloMosaic.PureOps.Ideal

noncomputable section

namespace Cert.SqDist

open Idealize.ShloMosaic Idealize.ShloMosaic.ValueIdx

/-- `(‖x_b‖² − 2·⟨x_b, w_p⟩) + ‖w_p‖²` over the extended reals. -/
def sqDist {B P D : ℕ} (x : (⟨2, ![B, D]⟩ : Shape).Idx → EReal) (w : (⟨2, ![P, D]⟩ : Shape).Idx → EReal)
    (b : Fin B) (p : Fin P) : EReal :=
  ((∑ k : Fin D, x (ix2 b k) * x (ix2 b k)) - Ideal.ofBits .f32 0x40000000#32 * ∑ k : Fin D, x (ix2 b k) * w (ix2 p k))
    + ∑ k : Fin D, w (ix2 p k) * w (ix2 p k)

/-- Only row `b` of `x` and row `p` of `w` enter: two pairs of matrices that agree on those rows, entry by entry,
    have the same distance. -/
theorem sqDist_congr {B P D B' P' : ℕ} (x : (⟨2, ![B, D]⟩ : Shape).Idx → EReal) (w : (⟨2, ![P, D]⟩ : Shape).Idx → EReal)
    (x' : (⟨2, ![B', D]⟩ : Shape).Idx → EReal) (w' : (⟨2, ![P', D]⟩ : Shape).Idx → EReal)
    (b : Fin B) (p : Fin P) (b' : Fin B') (p' : Fin P')
    (hx : ∀ k : Fin D, x (ix2 b k) = x' (ix2 b' k)) (hw : ∀ k : Fin D, w (ix2 p k) = w' (ix2 p' k)) :
    sqDist x w b p = sqDist x' w' b' p' := by
  unfold sqDist
  simp only [hx, hw]

/-- The table of all distances: entry `(b, p)` is the distance between row `b` of `x` and row `p` of `w`. -/
def table {B P D : ℕ} (x : (⟨2, ![B, D]⟩ : Shape).Idx → EReal) (w : (⟨2, ![P, D]⟩ : Shape).Idx → EReal) :
    (⟨2, ![B, P]⟩ : Shape).Idx → EReal :=
  fun i => sqDist x w ⟨(i 0).val, idx2_lt0 i⟩ ⟨(i 1).val, idx2_lt1 i⟩

/-- The table at an index written by its coordinates. -/
theorem table_ix2 {B P D : ℕ} (x : (⟨2, ![B, D]⟩ : Shape).Idx → EReal) (w : (⟨2, ![P, D]⟩ : Shape).Idx → EReal)
    (b : Fin B) (p : Fin P) : table x w (ix2 b p) = sqDist x w b p := rfl

end Cert.SqDist

end
-- ==== Proof.BlockDist.lean ====
/-
  What the kernel body computes from one block of rows of `x` and one block of rows of `w`: the table of squared
  distances between the rows of the two blocks.

  The body forms the row totals of `x ∘ x` as a column, the row totals of `w ∘ w` as a row, the product `x · wᵀ` into
  a zero accumulator, and stores `(column − 2 · product) + row`. Read at entry `(r, q)` over the extended reals each
  piece is a sum over the 64 columns: the column gives `‖x_r‖²`, the row gives `‖w_q‖²`, and the product, whose right
  operand is `w` transposed, gives `⟨x_r, w_q⟩`. No law of arithmetic is used: the three sums sit in the body in the
  same grouping as in the expanded distance.
-/
import proofs.«135437_j54099408060818_1_alg».proof.Proof.Gen.KernelIdeal.Skeleton
import proofs.«135437_j54099408060818_1_alg».proof.Proof.LibColumnForms
import proofs.«135437_j54099408060818_1_alg».proof.Proof.LibPlainMatmul
import proofs.«135437_j54099408060818_1_alg».proof.Proof.LibSqDist
import Idealize.ShloMosaic.Lib.ValueLayout

noncomputable section

namespace Cert.KernelIdeal.BlockDist

open Cert.KernelIdeal Cert.KernelIdeal.Gen Idealize.ShloMosaic Idealize.ShloMosaic.ValueIdx Cert.SqDist Cert.ColumnForms

/-- The product's dimension numbers are the plain ones: rows of the left operand against columns of the right. -/
theorem dot_eq_plain : dot_S2048x64_S64x1024_S2048x1024_1_0_0_1_n_n = DotDims.plain 2048 64 1024 := rfl

/-- Entry `(r, q)` of the stored block is the squared distance between row `r` of the `x` block and row `q` of the
    `w` block. -/
theorem pay_apply (x0 : FVec Ideal S2048x64 .f32) (x1 : FVec Ideal S1024x64 .f32) (r : Fin 2048) (q : Fin 1024) :
    k0_pay1 (F := Ideal) x0 x1 (ix2 r q) = sqDist x0 x1 r q := by
  unfold k0_pay1 sqDist
  dsimp only
  rw [shapeCast_self x1 shapeCasts_S1024x64_S1024x64]
  refine (addf_apply _ _ _).trans (congrArg₂ (· + ·) ((subf_apply _ _ _).trans (congrArg₂ (· - ·) ?_
    ((mulf_apply _ _ _).trans (congrArg₂ (· * ·) rfl ?_)))) ?_)
  · -- the column of row totals of x ∘ x, at row r
    exact (broadcastTo_a1_ab_apply _ _ r q).trans ((shapeCast_a_a1_apply _ _ r 0).trans (rowSum_apply _ _ _ _ _ r))
  · -- x · wᵀ at (r, q): the transpose read at (k, q) is w at (q, k)
    show FloatOps.matmul (DotDims.plain 2048 64 1024) none x0 _ (constant _ .f32 0x00000000#32) (ix2 r q) = _
    refine (Cert.PlainMatmul.apply none x0 _ r q).trans ?_
    exact Finset.sum_congr rfl fun k _ => congrArg (x0 (ix2 r k) * ·) (transpose_ix2_apply x1 _ k q)
  · -- the row of row totals of w ∘ w, at column q
    exact (broadcastTo_1b_ab_apply _ _ r q).trans ((shapeCast_a_1a_apply _ _ 0 q).trans (rowSum_apply _ _ _ _ _ q))

/-- The same at any index of the block, its coordinates read off the index. -/
theorem pay_at (x0 : FVec Ideal S2048x64 .f32) (x1 : FVec Ideal S1024x64 .f32) (y : S2048x1024.Idx) :
    k0_pay1 (F := Ideal) x0 x1 y = sqDist x0 x1 ⟨(y 0).val, idx2_lt0 y⟩ ⟨(y 1).val, idx2_lt1 y⟩ := by
  obtain ⟨r, q, rfl⟩ : ∃ (r : Fin 2048) (q : Fin 1024), y = ix2 r q := ⟨y 0, y 1, eq_ix2 y⟩
  exact pay_apply x0 x1 r q

end Cert.KernelIdeal.BlockDist

end
-- ==== Proof.KernelDist.lean ====
/-
  The kernel's result array is the table of squared distances between the rows of `x` and the rows of `W[0]`.

  The grid is 8 × 4: point `(i, j)` reads rows `2048·i …` of `x` and rows `1024·j …` of `W[0]` (the host's reshape of
  `W`, which drops its leading unit axis) and writes block `(i, j)` of the result. What it writes is the table of
  distances between those two blocks of rows, and since a distance depends only on one row of each matrix, that is
  block `(i, j)` of the whole table. The 32 blocks tile the result: index `(b, p)` lies in the block of point
  `(b / 2048, p / 1024)`. So after the run the result array is the whole table.
-/
import proofs.«135437_j54099408060818_1_alg».proof.Proof.Gen.KernelIdeal.Value
import proofs.«135437_j54099408060818_1_alg».proof.Proof.BlockDist
import Idealize.ShloMosaic.Lib.StableHlo.Run

noncomputable section

namespace Cert.KernelIdeal.KernelDist

open Cert.KernelIdeal Cert.KernelIdeal.Gen Idealize.ShloMosaic Idealize.ShloMosaic.TcCoe Idealize.SL.Sem
open Idealize.ShloMosaic.ValueIdx Idealize.ShloMosaic.StableHlo Cert.SqDist
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the 32 grid points: the `x` window follows the result's block row, the `W[0]` window
    the result's block column, both at block column 0 of their own arrays. -/
theorem index_maps : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every one of the 8 × 4 result blocks is some grid point's. -/
theorem index_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- The array the `W` window reads is `W` with its leading unit axis dropped: the one host operation before the region. -/
theorem V_main_v0 (c : Dev nD) :
    (V m c main_v0 : S4096x64.Idx → EReal)
      = shapeCast S4096x64 (m ((c : Thread nD τ).loc main_arg1)) shapeCasts_S1x4096x64_S4096x64 := by
  dsimp only [Gen.V, Gen.hostOps0]
  after_results
  rfl

/-- What grid point `t` writes back is block `t` of the table of distances between the two arrays the region reads. -/
theorem flushed_eq (c : Dev nD) (t : Fin cfg0.N) :
    (dats m 0 c).flushed 2 t
      = ((cfg0.win 2).blk t).view.read (Elt Ideal)
          (table (B := 16384) (P := 4096) (D := 64) (V m c main_arg0) (V m c main_v0)) := by
  rw [Value.flushed2]
  unfold out0_2
  rw [View.canon_unit_zero zero_offsets]
  simp only [View.ld_unit_zero (S := S2048x64) zero_offsets, View.ld_unit_zero (S := S1024x64) zero_offsets]
  obtain ⟨e0, e1, e2, e3⟩ := index_maps t
  funext j
  show k0_pay1 (F := Ideal) (iblk m c 0 t) (iblk m c 1 t) j
    = table (B := 16384) (P := 4096) (D := 64) (V m c main_arg0) (V m c main_v0) (((cfg0.win 2).blk t).view.emb j)
  refine (BlockDist.pay_at (iblk m c 0 t) (iblk m c 1 t) j).trans ?_
  refine sqDist_congr _ _ _ _ _ _ _ _ (fun k => ?_) (fun k => ?_)
  · -- row (j 0) of the x block is row (2048 · block row + j 0) of x
    show V m c main_arg0 (((cfg0.win 0).blk t).view.emb (ix2 (⟨(j 0).val, idx2_lt0 j⟩ : Fin 2048) k)) = V m c main_arg0 _
    refine congrArg _ (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 64 + 1 * k.val = k.val
      omega
  · -- row (j 1) of the W[0] block is row (1024 · block column + j 1) of W[0]
    show V m c main_v0 (((cfg0.win 1).blk t).view.emb (ix2 (⟨(j 1).val, idx2_lt1 j⟩ : Fin 1024) k)) = V m c main_v0 _
    refine congrArg _ (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 64 + 1 * k.val = k.val
      omega

/-- An index of the result is in point `t`'s block iff each coordinate is in the block's range on its axis. -/
theorem mem_blk (t : Fin cfg0.N) (i : S16384x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- The blocks tile the result: index `(b, p)` is in the block of the point with block indices `(b / 2048, p / 1024)`. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := index_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- The result array after the run: the table of distances between `x`'s rows and the rows of `W` without its unit axis. -/
theorem final (c : Dev nD) :
    (dats m 0 c).arrAt 2 cfg0.N
      = table (B := 16384) (P := 4096) (D := 64) (m ((c : Thread nD τ).loc main_arg0))
          (shapeCast S4096x64 (m ((c : Thread nD τ).loc main_arg1)) shapeCasts_S1x4096x64_S4096x64) := by
  rw [(dats m 0 c).arrAt_eq_of_cover 2 _ (fun t _ => flushed_eq m c t) cover, V_main_arg0, V_main_v0]

/-- The kernel's run with its result named: the table of distances of the launch arguments, the arguments unchanged. -/
theorem run : θ_run defs (onTc (τ := τ) (main (F := Ideal))) ⟨m, fun _ => 0, ρ⟩ fun r => ∀ c : Dev nD,
      r.2.mem ((c : Thread nD τ).loc main_v1)
        = table (B := 16384) (P := 4096) (D := 64) (m ((c : Thread nD τ).loc main_arg0))
            (shapeCast S4096x64 (m ((c : Thread nD τ).loc main_arg1)) shapeCasts_S1x4096x64_S4096x64)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelDist

end
-- ==== Proof.RefDist.lean ====
/-
  The reference computes the table of squared distances between the rows of `x` and the rows of `W[0]`.

  Read at index `(b, p)`, operation by operation: the two `reduce`s are `0 + ∑_k x(b,k)²` and `0 + ∑_k w(p,k)²`
  (kept as a column and as a row, then broadcast), the `dot_general` contracts the last axes of both operands,
  `∑_k x(b,k)·w(p,k)`, and the result is `(‖x_b‖² − 2·⟨x_b, w_p⟩) + ‖w_p‖²`. The only arithmetic fact used is that the
  `reduce`s' initial value, the zero word, is the extended real 0.
-/
import proofs.«135437_j54099408060818_1_alg».proof.Proof.Gen.ReferenceIdeal.Read
import proofs.«135437_j54099408060818_1_alg».proof.Proof.LibSqDist

noncomputable section

namespace Cert.ReferenceIdeal.RefDist

open Cert.ReferenceIdeal Cert.ReferenceIdeal.Gen Cert.ReferenceIdeal.Read Idealize.ShloMosaic Idealize.ShloMosaic.ValueIdx Cert.SqDist

/-- The reference's result is the table of distances between `x`'s rows and the rows of `W` with its leading unit
    axis dropped. -/
theorem ref_is_table (x0 : FVec Ideal S16384x64 .f32) (x1 : FVec Ideal S1x4096x64 .f32) :
    val_main_v13 (F := Ideal) x0 x1 = table x0 (val_main_v0 (F := Ideal) x1) := by
  funext i
  have e1 : ∀ k : Fin 64, idx_main_v2 (idx_main_v3 (idx_main_v10 i)) k = ix2 (⟨(i 0).val, idx2_lt0 i⟩ : Fin 16384) k :=
    fun k => funext fun a => Fin.ext (by match a with | ⟨0, _⟩ => rfl | ⟨1, _⟩ => rfl)
  have e2 : ∀ k : Fin 64, lidx_main_v7 i k = ix2 (⟨(i 0).val, idx2_lt0 i⟩ : Fin 16384) k :=
    fun k => funext fun a => Fin.ext (by match a with | ⟨0, _⟩ => rfl | ⟨1, _⟩ => rfl)
  have e3 : ∀ k : Fin 64, ridx_main_v7 i k = ix2 (⟨(i 1).val, idx2_lt1 i⟩ : Fin 4096) k :=
    fun k => funext fun a => Fin.ext (by match a with | ⟨0, _⟩ => rfl | ⟨1, _⟩ => rfl)
  have e4 : ∀ k : Fin 64, idx_main_v5 (idx_main_v6 (idx_main_v12 i)) k = ix2 (⟨(i 1).val, idx2_lt1 i⟩ : Fin 4096) k :=
    fun k => funext fun a => Fin.ext (by match a with | ⟨0, _⟩ => rfl | ⟨1, _⟩ => rfl)
  rw [val_main_v13_apply, val_main_v11_apply, val_main_v10_apply, val_main_v3_apply, val_main_v2_apply,
    val_main_v9_apply, val_main_v8_apply, val_main_v7_apply, val_main_v12_apply, val_main_v6_apply, val_main_v5_apply]
  simp only [val_main_v1_apply, val_main_v4_apply, val_main_cst_apply, val_main_cst_0_apply, val_main_cst_1_apply,
    e1, e2, e3, e4, Ideal.addf_def, Ideal.subf_def, Ideal.mulf_def, Ideal.ofBits_def, Ideal.ofBits_zero_f32, zero_add]
  rfl

end Cert.ReferenceIdeal.RefDist

end
-- ==== Proof.lean ====
/-
  The squared-distance table, kernel against reference.

  Both programs compute, for every row `b` of `x : [16384, 64]` and every row `p` of `W[0] : [4096, 64]`, the expanded
  squared distance `(‖x_b‖² − 2·⟨x_b, w_p⟩) + ‖w_p‖²`, each of the three a sum over the 64 columns, with the same
  grouping and the same f32 word for the factor 2. The kernel does it block by block on an 8 × 4 grid (a block of the
  table is the table of the blocks of rows, and the 32 blocks tile the result); the reference does it on whole arrays.
  Over the extended reals the two results are the same function of the arguments, entry by entry, with no law of
  arithmetic beyond `0 + s = s` for the reference's initial value of its two sums, so the precondition is not used.
  The kernel read over the extended reals is the word-level kernel's own text, unchanged, so the preservation
  conjunct is empty.
-/
import proofs.«135437_j54099408060818_1_alg».proof.Defs
import proofs.«135437_j54099408060818_1_alg».proof.Proof.Gen.Kernel
import proofs.«135437_j54099408060818_1_alg».proof.Proof.Gen.Kernel.Skeleton
import proofs.«135437_j54099408060818_1_alg».proof.Proof.Gen.Kernel.Launch
import proofs.«135437_j54099408060818_1_alg».proof.Proof.Gen.Kernel.Points
import proofs.«135437_j54099408060818_1_alg».proof.Proof.Gen.Kernel.Frame
import proofs.«135437_j54099408060818_1_alg».proof.Proof.Gen.KernelIdeal
import proofs.«135437_j54099408060818_1_alg».proof.Proof.Gen.KernelIdeal.Skeleton
import proofs.«135437_j54099408060818_1_alg».proof.Proof.Gen.KernelIdeal.Launch
import proofs.«135437_j54099408060818_1_alg».proof.Proof.Gen.KernelIdeal.Points
import proofs.«135437_j54099408060818_1_alg».proof.Proof.Gen.KernelIdeal.Frame
import proofs.«135437_j54099408060818_1_alg».proof.Proof.Gen.ReferenceIdeal
import proofs.«135437_j54099408060818_1_alg».proof.Proof.Gen.Pre_finite_inputs
import proofs.«135437_j54099408060818_1_alg».proof.Proof.Gen.KernelIdeal.Value
import proofs.«135437_j54099408060818_1_alg».proof.Proof.Gen.ReferenceIdeal.Run
import proofs.«135437_j54099408060818_1_alg».proof.Proof.Gen.ReferenceIdeal.Read
import proofs.«135437_j54099408060818_1_alg».proof.Proof.KernelDist
import proofs.«135437_j54099408060818_1_alg».proof.Proof.RefDist
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the table of squared distances of their arguments, and the arguments agree. -/
theorem algebraic : Cert.algebraic_KernelIdeal_ReferenceIdeal := by
  intro m ρ m' ρ' _ hagree
  refine ⟨_, Cert.KernelIdeal.KernelDist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefDist.ref_is_table, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
